-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 78
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S1700000, .i32⟩
  | .hbm, ⟨17, _⟩ => ⟨S1700000, .i1⟩
  | .hbm, ⟨18, _⟩ => ⟨S_, .i32⟩
  | .hbm, ⟨19, _⟩ => ⟨S1700000, .i32⟩
  | .hbm, ⟨20, _⟩ => ⟨S1700000, .i32⟩
  | .hbm, ⟨21, _⟩ => ⟨S1700000, .i32⟩
  | .hbm, ⟨22, _⟩ => ⟨S1700000x1, .i32⟩
  | .hbm, ⟨23, _⟩ => ⟨S_, .f32⟩
  | .hbm, ⟨24, _⟩ => ⟨S1700000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x128, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x128, .f32⟩
  | .hbm, ⟨66, _⟩ => ⟨S1700000x1, .f32⟩
  | .hbm, ⟨67, _⟩ => ⟨S1700000x128, .f32⟩
  | .hbm, ⟨68, _⟩ => ⟨S1700000x128, .f32⟩
  | .hbm, ⟨69, _⟩ => ⟨S_, .f32⟩
  | .hbm, ⟨70, _⟩ => ⟨S100000x128, .f32⟩
  | .hbm, ⟨71, _⟩ => ⟨S1700000x1, .i32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S1x64, .f32⟩
  | .hbm, ⟨77, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 83
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S1700000, .i32⟩
  | .hbm, ⟨17, _⟩ => ⟨S1700000, .i1⟩
  | .hbm, ⟨18, _⟩ => ⟨S_, .i32⟩
  | .hbm, ⟨19, _⟩ => ⟨S1700000, .i32⟩
  | .hbm, ⟨20, _⟩ => ⟨S1700000, .i32⟩
  | .hbm, ⟨21, _⟩ => ⟨S1700000, .i32⟩
  | .hbm, ⟨22, _⟩ => ⟨S1700000x1, .i32⟩
  | .hbm, ⟨23, _⟩ => ⟨S_, .f32⟩
  | .hbm, ⟨24, _⟩ => ⟨S1700000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x128, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x128, .f32⟩
  | .hbm, ⟨66, _⟩ => ⟨S1700000x1, .f32⟩
  | .hbm, ⟨67, _⟩ => ⟨S1700000x128, .f32⟩
  | .hbm, ⟨68, _⟩ => ⟨S1700000x128, .f32⟩
  | .hbm, ⟨69, _⟩ => ⟨S_, .f32⟩
  | .hbm, ⟨70, _⟩ => ⟨S100000x128, .f32⟩
  | .hbm, ⟨71, _⟩ => ⟨S1700000x1, .i32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Region0.lean ====
/-
  The first dense product, tile by tile. Grid point `t` loads rows `5000·t … 5000·t + 4999` of `x` and the whole of `W1`,
  and stores their product; at the extended reals the narrowing of both factors is the identity and the matrix unit's
  product into a zero accumulator is the plain sum over the contracted axis. So the tile stored at `t` is the tile at `t`
  of ONE function of the whole arrays, `(r, c) ↦ ∑ k, x (r, k) · W1 (k, c)`, and the twenty tiles cover the result.
-/
import proofs.«116519_j1425929142718_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat Cfg Window)

/-! ## Indices: entry `(r, k)` of a left factor and `(k, c)` of the right factor, for the output entry `i = (r, c)` -/

abbrev lrow (i : S5000x128.Idx) (k : Fin 128) : S5000x128.Idx := fun a => match a with
  | ⟨0, _⟩ => ⟨(i 0).val, (i 0).isLt⟩
  | ⟨1, _⟩ => ⟨k.val, k.isLt⟩
abbrev rcol (i : S5000x128.Idx) (k : Fin 128) : S128x128.Idx := fun a => match a with
  | ⟨0, _⟩ => ⟨k.val, k.isLt⟩
  | ⟨1, _⟩ => ⟨(i 1).val, (i 1).isLt⟩
abbrev lrowA (i : S100000x128.Idx) (k : Fin 128) : S100000x128.Idx := fun a => match a with
  | ⟨0, _⟩ => ⟨(i 0).val, (i 0).isLt⟩
  | ⟨1, _⟩ => ⟨k.val, k.isLt⟩
abbrev rcolA (i : S100000x128.Idx) (k : Fin 128) : S128x128.Idx := fun a => match a with
  | ⟨0, _⟩ => ⟨k.val, k.isLt⟩
  | ⟨1, _⟩ => ⟨(i 1).val, (i 1).isLt⟩

/-- The whole product: entry `(r, c)` is the sum over `k` of `x (r, k) · w (k, c)`. -/
def prod (x : (⟨S100000x128, .f32⟩ : BufTy).Contents (Elt Ideal)) (w : (⟨S128x128, .f32⟩ : BufTy).Contents (Elt Ideal)) :
    (⟨S100000x128, .f32⟩ : BufTy).Contents (Elt Ideal) :=
  fun i => ∑ k : Fin 128, x (lrowA i k) * w (rcolA i k)

/-! ## The tile's product at an index -/

theorem lhs_tile_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_tile_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_tile_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_tile_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product into a zero accumulator, at entry `j` of the tile: the sum over the contracted axis. -/
theorem mm_apply (y0 : FVec Ideal S5000x128 .bf16) (y1 : FVec Ideal S128x128 .bf16) (j : S5000x128.Idx) :
    FloatOps.matmul dot_S5000x128_S128x128_S5000x128_1_0_0_1_n_n none y0 y1 (constant S5000x128 .f32 0x00000000#32) j = ∑ k : Fin 128, y0 (lrow j k) * y1 (rcol j k) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lrow j k := funext fun a => Fin.ext (by
    match a with
    | ⟨0, _⟩ => exact lhs_tile_0 _ _
    | ⟨1, _⟩ => exact (lhs_tile_1 _ _).trans hk)
  have er : dot_S5000x128_S128x128_S5000x128_1_0_0_1_n_n.rhsIdx j ((ValueIdx.contrEquiv1 dot_S5000x128_S128x128_S5000x128_1_0_0_1_n_n 128 rfl rfl).symm k) = rcol j k := funext fun a => Fin.ext (by
    match a with
    | ⟨0, _⟩ => exact (rhs_tile_0 _ _).trans hk
    | ⟨1, _⟩ => exact rhs_tile_1 _ _)
  rw [el, er]

/-- What the body stores, at entry `j` of the tile: the narrowing of the loaded factors is the identity, so it is the
    sum over the contracted axis of the loaded factors' products. -/
theorem pay_apply (x0 : Vec Ideal S5000x128 .f32) (x1 : Vec Ideal S128x128 .f32) (j : S5000x128.Idx) :
    k0_pay1 (F := Ideal) x0 x1 j = ∑ k : Fin 128, x0 (lrow j k) * x1 (rcol j k) :=
  mm_apply (truncf (F := Ideal) .bf16 x0 bitsLt_bf16_f32) (truncf (F := Ideal) .bf16 x1 bitsLt_bf16_f32) j

/-! ## From tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tile windows sit at row block `t`, column block `0`; the weight's
    window at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is tile `t` of the whole product of the arrays the region finds. -/
theorem flushed_eq (c : Dev nD) (t : Fin cfg0.N) :
    (dat0 V c).flushed 2 t = ((cfg0.win 2).blk t).view.read (Elt Ideal) (prod (V c main_arg0) (V c main_arg1)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (F := Ideal) (iblk0 V c 0 t) (iblk0 V c 1 t) j = prod (V c main_arg0) (V c main_arg1) (((cfg0.win 2).blk t).view.emb j)
  refine (pay_apply (iblk0 V c 0 t) (iblk0 V c 1 t) j).trans ?_
  unfold prod
  refine Finset.sum_congr rfl fun k _ => ?_
  have h0 : iblk0 V c 0 t (lrow j k) = V c main_arg0 (lrowA (((cfg0.win 2).blk t).view.emb j) k) := by
    show V c main_arg0 (((cfg0.win 0).blk t).view.emb (lrow j k)) = V c main_arg0 (lrowA (((cfg0.win 2).blk t).view.emb j) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : iblk0 V c 1 t (rcol j k) = V c main_arg1 (rcolA (((cfg0.win 2).blk t).view.emb j) k) := by
    show V c main_arg1 (((cfg0.win 1).blk t).view.emb (rcol j k)) = V c main_arg1 (rcolA (((cfg0.win 2).blk t).view.emb j) k)
    refine congrArg (V c main_arg1) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the array is in point `t`'s tile iff each coordinate is in the tile's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v37).slice (win0_2.rect t)).set ↔ _
  rw [View.set_slice_whole, Rect.mem_set_unit]
  exact Iff.rfl

/-- Row `r` lies in the tile of point `r / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < cfg0.N := by show (i 0).val / 5000 < grid0.N; rw [N_0]; omega
  obtain ⟨e0, e1, e2, e3, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- The region's result array, after the run: the whole product of the two arrays as the region finds them. -/
theorem final (c : Dev nD) : (dat0 V c).arrAt 2 cfg0.N = prod (V c main_arg0) (V c main_arg1) :=
  (dat0 V c).arrAt_eq_of_cover 2 (prod (V c main_arg0) (V c main_arg1)) (fun t _ => flushed_eq V c t) cover

end Cert.KernelIdeal.Region0

end
-- ==== Proof.Region1.lean ====
/-
  The closing layer, tile by tile. Grid point `t` loads rows `5000·t … 5000·t + 4999` of the aggregated features, the
  whole of `W2` and the bias row, and stores `max a 0 · W2 + b2`; at the extended reals the narrowing of both factors is
  the identity and the matrix unit's product into a zero accumulator is the plain sum over the contracted axis. So the
  tile stored at `t` is the tile at `t` of ONE function of the whole arrays,
  `(r, c) ↦ (∑ k, max (a (r, k)) 0 · W2 (k, c)) + b (0, c)`, and the twenty tiles cover the result.
-/
import proofs.«116519_j1425929142718_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat Cfg Window)

/-! ## Indices: entry `(r, k)` of the left factor, `(k, c)` of the right factor and `(0, c)` of the bias row, for the
    output entry `i = (r, c)` -/

abbrev lrow (i : S5000x64.Idx) (k : Fin 128) : S5000x128.Idx := fun a => match a with
  | ⟨0, _⟩ => ⟨(i 0).val, (i 0).isLt⟩
  | ⟨1, _⟩ => ⟨k.val, k.isLt⟩
abbrev rcol (i : S5000x64.Idx) (k : Fin 128) : S128x64.Idx := fun a => match a with
  | ⟨0, _⟩ => ⟨k.val, k.isLt⟩
  | ⟨1, _⟩ => ⟨(i 1).val, (i 1).isLt⟩
abbrev brow (i : S5000x64.Idx) : S1x64.Idx := fun a => match a with
  | ⟨0, _⟩ => ⟨0, Nat.one_pos⟩
  | ⟨1, _⟩ => ⟨(i 1).val, (i 1).isLt⟩
abbrev lrowA (i : S100000x64.Idx) (k : Fin 128) : S100000x128.Idx := fun a => match a with
  | ⟨0, _⟩ => ⟨(i 0).val, (i 0).isLt⟩
  | ⟨1, _⟩ => ⟨k.val, k.isLt⟩
abbrev rcolA (i : S100000x64.Idx) (k : Fin 128) : S128x64.Idx := fun a => match a with
  | ⟨0, _⟩ => ⟨k.val, k.isLt⟩
  | ⟨1, _⟩ => ⟨(i 1).val, (i 1).isLt⟩
abbrev browA (i : S100000x64.Idx) : S1x64.Idx := fun a => match a with
  | ⟨0, _⟩ => ⟨0, Nat.one_pos⟩
  | ⟨1, _⟩ => ⟨(i 1).val, (i 1).isLt⟩

/-- The whole closing layer: entry `(r, c)` is the sum over `k` of `max (a (r, k)) 0 · w (k, c)`, plus `b (0, c)`. -/
def layer (a : (⟨S100000x128, .f32⟩ : BufTy).Contents (Elt Ideal)) (w : (⟨S128x64, .f32⟩ : BufTy).Contents (Elt Ideal))
    (b : (⟨S1x64, .f32⟩ : BufTy).Contents (Elt Ideal)) : (⟨S100000x64, .f32⟩ : BufTy).Contents (Elt Ideal) :=
  fun i => (∑ k : Fin 128, max (a (lrowA i k)) (Ideal.ofBits .f32 0x00000000#32) * w (rcolA i k)) + b (browA i)

/-! ## The tile's value at an index -/

theorem lhs_tile_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_tile_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_tile_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_tile_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product part of what the body stores, at entry `j` of the tile. -/
theorem mm_apply (y0 : FVec Ideal S5000x128 .bf16) (y1 : FVec Ideal S128x64 .bf16) (j : S5000x64.Idx) :
    FloatOps.matmul dot_S5000x128_S128x64_S5000x64_1_0_0_1_n_n none y0 y1 (constant S5000x64 .f32 0x00000000#32) j = ∑ k : Fin 128, y0 (lrow j k) * y1 (rcol j k) := by
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = lrow j k := funext fun a => Fin.ext (by
    match a with
    | ⟨0, _⟩ => exact lhs_tile_0 _ _
    | ⟨1, _⟩ => exact (lhs_tile_1 _ _).trans hk)
  have er : dot_S5000x128_S128x64_S5000x64_1_0_0_1_n_n.rhsIdx j ((ValueIdx.contrEquiv1 dot_S5000x128_S128x64_S5000x64_1_0_0_1_n_n 128 rfl rfl).symm k) = rcol j k := funext fun a => Fin.ext (by
    match a with
    | ⟨0, _⟩ => exact (rhs_tile_0 _ _).trans hk
    | ⟨1, _⟩ => exact rhs_tile_1 _ _)
  rw [el, er]

/-- The bias row broadcast down the tile's rows, at entry `j`: the row's entry in `j`'s column. -/
theorem bias_apply (x2 : Vec Ideal S1x64 .f32) (j : S5000x64.Idx) :
    broadcastTo S5000x64 (shapeCast S1x64 x2 shapeCasts_S1x64_S1x64) broadcasts_S1x64_S5000x64 j = x2 (brow j) := by
  rw [shapeCast_self]
  exact broadcastTo_apply x2 broadcasts_S1x64_S5000x64 j (brow j) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])

/-- What the body stores, at entry `j` of the tile. -/
theorem pay_apply (x0 : Vec Ideal S5000x128 .f32) (x1 : Vec Ideal S128x64 .f32) (x2 : Vec Ideal S1x64 .f32) (j : S5000x64.Idx) :
    k1_pay1 (F := Ideal) x0 x1 x2 j
      = (∑ k : Fin 128, max (x0 (lrow j k)) (Ideal.ofBits .f32 0x00000000#32) * x1 (rcol j k)) + x2 (brow j) := by
  unfold k1_pay1
  show (FloatOps.matmul (F := Ideal) dot_S5000x128_S128x64_S5000x64_1_0_0_1_n_n none
        (truncf (F := Ideal) .bf16 (maximumf (F := Ideal) (shapeCast S5000x128 x0 shapeCasts_S5000x128_S5000x128) (broadcast S5000x128 (Scalar.ofBits (F := Ideal) .f32 0x00000000#32))) bitsLt_bf16_f32)
        (truncf (F := Ideal) .bf16 x1 bitsLt_bf16_f32) (constant S5000x64 .f32 0x00000000#32) j : EReal)
      + (broadcastTo S5000x64 (shapeCast S1x64 x2 shapeCasts_S1x64_S1x64) broadcasts_S1x64_S5000x64 j : EReal) = _
  rw [mm_apply, bias_apply, shapeCast_self]
  rfl

/-! ## From tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tile windows sit at row block `t`, column block `0`; the weight's and
    the bias row's windows at block `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is tile `t` of the whole layer of the arrays the region finds. -/
theorem flushed_eq (c : Dev nD) (t : Fin cfg1.N) :
    (dat1 V c).flushed 3 t = ((cfg1.win 3).blk t).view.read (Elt Ideal) (layer (V c main_v53) (V c main_arg3) (V c main_v54)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x64) hz, View.ld_unit_zero (S := S1x64) hz]
  obtain ⟨e0, e1, e2, e3, e4, e5, e6, e7⟩ := idx_facts t
  funext j
  show k1_pay1 (F := Ideal) (iblk1 V c 0 t) (iblk1 V c 1 t) (iblk1 V c 2 t) j = layer (V c main_v53) (V c main_arg3) (V c main_v54) (((cfg1.win 3).blk t).view.emb j)
  refine (pay_apply (iblk1 V c 0 t) (iblk1 V c 1 t) (iblk1 V c 2 t) j).trans ?_
  unfold layer
  have h2 : iblk1 V c 2 t (brow j) = V c main_v54 (browA (((cfg1.win 3).blk t).view.emb j)) := by
    show V c main_v54 (((cfg1.win 2).blk t).view.emb (brow j)) = V c main_v54 (browA (((cfg1.win 3).blk t).view.emb j))
    refine congrArg (V c main_v54) (funext fun a => Fin.ext ?_)
    match a with
    | ⟨0, _⟩ => show win1_2.index t (0 : Fin 2) * 1 + 1 * 0 = 0; omega
    | ⟨1, _⟩ => show win1_2.index t (1 : Fin 2) * 64 + 1 * (j 1).val = win1_3.index t (1 : Fin 2) * 64 + 1 * (j 1).val; omega
  rw [h2]
  refine congrArg (· + V c main_v54 (browA (((cfg1.win 3).blk t).view.emb j))) (Finset.sum_congr rfl fun k _ => ?_)
  have h0 : iblk1 V c 0 t (lrow j k) = V c main_v53 (lrowA (((cfg1.win 3).blk t).view.emb j) k) := by
    show V c main_v53 (((cfg1.win 0).blk t).view.emb (lrow j k)) = V c main_v53 (lrowA (((cfg1.win 3).blk t).view.emb j) k)
    refine congrArg (V c main_v53) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have h1 : iblk1 V c 1 t (rcol j k) = V c main_arg3 (rcolA (((cfg1.win 3).blk t).view.emb j) k) := by
    show V c main_arg3 (((cfg1.win 1).blk t).view.emb (rcol j k)) = V c main_arg3 (rcolA (((cfg1.win 3).blk t).view.emb j) k)
    refine congrArg (V c main_arg3) (funext fun a => Fin.ext ?_)
    match a with
    | ⟨0, _⟩ => show win1_1.index t (0 : Fin 2) * 128 + 1 * k.val = k.val; omega
    | ⟨1, _⟩ => show win1_1.index t (1 : Fin 2) * 64 + 1 * (j 1).val = win1_3.index t (1 : Fin 2) * 64 + 1 * (j 1).val; omega
  rw [h0, h1]

/-- An index of the array is in point `t`'s tile iff each coordinate is in the tile's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v55).slice (win1_3.rect t)).set ↔ _
  rw [View.set_slice_whole, Rect.mem_set_unit]
  exact Iff.rfl

/-- Row `r` lies in the tile of point `r / 5000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have ht : (i 0).val / 5000 < cfg1.N := by show (i 0).val / 5000 < grid1.N; rw [N_1]; omega
  obtain ⟨e0, e1, e2, e3, e4, e5, e6, e7⟩ := idx_facts ⟨(i 0).val / 5000, ht⟩
  refine ⟨⟨(i 0).val / 5000, ht⟩, flush1_3 _, ?_⟩
  rw [mem_blk]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 64 ≤ (i 1).val ∧ (i 1).val < win1_3.index ⟨(i 0).val / 5000, ht⟩ (1 : Fin 2) * 64 + 64
    rw [e7]; omega

/-- The region's result array, after the run: the whole layer of the three arrays as the region finds them. -/
theorem final (c : Dev nD) : (dat1 V c).arrAt 3 cfg1.N = layer (V c main_v53) (V c main_arg3) (V c main_v54) :=
  (dat1 V c).arrAt_eq_of_cover 3 (layer (V c main_v53) (V c main_arg3) (V c main_v54)) (fun t _ => flushed_eq V c t) cover

end Cert.KernelIdeal.Region1

end
-- ==== Proof.Spec.lean ====
/-
  The two programs run the same host operations around two dense products. Between the products both compute the
  normalized neighbour aggregation of the transformed features: gather the source rows, scale each by its edge's
  normalization, scatter-add into the destination rows, add the bias. Here that stretch is ONE function `agg` of the
  transformed features, stated over the reference's own stages, so that neither side ever opens it.
-/
import proofs.«116519_j1425929142718_1_alg».proof.Proof.RefRead

noncomputable section

namespace Cert.Bridge

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The aggregation plus bias as a function of the transformed features `h`: row `d` of the result is `b1` plus the sum
    over the edges `e` into `d` (self loops included) of `norm e · h (src e)`. -/
def agg (h : (⟨S100000x128, .f32⟩ : BufTy).Contents (Elt F)) (x2 : (⟨S128, .f32⟩ : BufTy).Contents (Elt F))
    (x5 : (⟨S2x1600000, .i32⟩ : BufTy).Contents (Elt F)) : (⟨S100000x128, .f32⟩ : BufTy).Contents (Elt F) :=
  addf (Host.scatterAdd scatter_S100000x128_S1700000x1_S1700000x128_1_0_0_1 (val_main_v48 (F := F)) (val_main_v49 (F := F) x5)
      (mulf (Host.gather gather_S100000x128_S1700000x1_S1700000x128_1_0_n_n_0_1_1128 h (val_main_v43 (F := F) x5)) (val_main_v46 (F := F) x5)))
    (val_main_v52 (F := F) x2)

/-- The reference's aggregated features are `agg` of its first product. -/
theorem v53_eq (x0 : (⟨S100000x128, .f32⟩ : BufTy).Contents (Elt F)) (x1 : (⟨S128x128, .f32⟩ : BufTy).Contents (Elt F))
    (x2 : (⟨S128, .f32⟩ : BufTy).Contents (Elt F)) (x5 : (⟨S2x1600000, .i32⟩ : BufTy).Contents (Elt F)) :
    val_main_v53 (F := F) x0 x1 x2 x5 = agg (val_main_v37 (F := F) x0 x1) x2 x5 := rfl

end Cert.Bridge

end
-- ==== Proof.Host.lean ====
/-
  What the host stretches of the kernel's program leave in the buffers the two tiled products read. Before the first
  product nothing writes `x` and `W1`; the edge lists with self loops (sources, destinations) and the per-edge
  normalization are the reference's own stages of the edge index. Between the products the host gathers, scales,
  scatter-adds and adds the bias: the second product's left factor is `agg` of the first product's result, its right
  factor is `W2` as launched, and its bias row is `b2` recast to one row.
-/
import proofs.«116519_j1425929142718_1_alg».proof.Proof.Gen.KernelIdeal.Frame
import proofs.«116519_j1425929142718_1_alg».proof.Proof.Spec

set_option maxRecDepth 16384

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## At the first product's entry -/

theorem W3_arg0 (c : Dev nD) : W3 m ρ c (Proc.devRef .tc main_arg0) = m ((c : Thread nD τ).loc main_arg0) := by
  show after hostOps0_2 (after hostOps0_1 (after hostOps0 (W0 m ρ c))) (Proc.devRef .tc main_arg0) = _
  after_results_simp <;> rfl
theorem W3_arg1 (c : Dev nD) : W3 m ρ c (Proc.devRef .tc main_arg1) = m ((c : Thread nD τ).loc main_arg1) := by
  show after hostOps0_2 (after hostOps0_1 (after hostOps0 (W0 m ρ c))) (Proc.devRef .tc main_arg1) = _
  after_results_simp <;> rfl
theorem W3_arg2 (c : Dev nD) : W3 m ρ c (Proc.devRef .tc main_arg2) = m ((c : Thread nD τ).loc main_arg2) := by
  show after hostOps0_2 (after hostOps0_1 (after hostOps0 (W0 m ρ c))) (Proc.devRef .tc main_arg2) = _
  after_results_simp <;> rfl
theorem W3_arg3 (c : Dev nD) : W3 m ρ c (Proc.devRef .tc main_arg3) = m ((c : Thread nD τ).loc main_arg3) := by
  show after hostOps0_2 (after hostOps0_1 (after hostOps0 (W0 m ρ c))) (Proc.devRef .tc main_arg3) = _
  after_results_simp <;> rfl
theorem W3_arg4 (c : Dev nD) : W3 m ρ c (Proc.devRef .tc main_arg4) = m ((c : Thread nD τ).loc main_arg4) := by
  show after hostOps0_2 (after hostOps0_1 (after hostOps0 (W0 m ρ c))) (Proc.devRef .tc main_arg4) = _
  after_results_simp <;> rfl

/-- The source list with self loops. -/
theorem W3_v3 (c : Dev nD) :
    W3 m ρ c (Proc.devRef .tc main_v3) = Cert.ReferenceIdeal.ReadP.val_main_v3 (F := F) (m ((c : Thread nD τ).loc main_arg5)) := by
  show after hostOps0_2 (after hostOps0_1 (after hostOps0 (W0 m ρ c))) (Proc.devRef .tc main_v3) = _
  after_results_simp <;> rfl
/-- The destination list with self loops. -/
theorem W3_v6 (c : Dev nD) :
    W3 m ρ c (Proc.devRef .tc main_v6) = Cert.ReferenceIdeal.ReadP.val_main_v6 (F := F) (m ((c : Thread nD τ).loc main_arg5)) := by
  show after hostOps0_2 (after hostOps0_1 (after hostOps0 (W0 m ρ c))) (Proc.devRef .tc main_v6) = _
  after_results_simp <;> rfl
/-- The per-edge normalization. -/
theorem W3_v36 (c : Dev nD) :
    W3 m ρ c (Proc.devRef .tc main_v36) = Cert.ReferenceIdeal.ReadP.val_main_v36 (F := F) (m ((c : Thread nD τ).loc main_arg5)) := by
  show after hostOps0_2 (after hostOps0_1 (after hostOps0 (W0 m ρ c))) (Proc.devRef .tc main_v36) = _
  after_results_simp <;> (try simp only [TRef.ofBuf, TRef.toBuf, cast_eq]) <;> rfl

/-! ## At the second product's entry -/

/-- The second product's left factor: `agg` of what the first product left. -/
theorem W5_v53 (c : Dev nD) :
    W5 m ρ c (Proc.devRef .tc main_v53)
      = Cert.Bridge.agg (F := F) (W4 m ρ c (Proc.devRef .tc main_v37)) (m ((c : Thread nD τ).loc main_arg2)) (m ((c : Thread nD τ).loc main_arg5)) := by
  show after hostOps1 (W4 m ρ c) (Proc.devRef .tc main_v53) = _
  after_results_simp
  rw [W4_of_ne m ρ c main_v3 (by decide), W4_of_ne m ρ c main_v6 (by decide), W4_of_ne m ρ c main_v36 (by decide),
    W4_of_ne m ρ c main_arg2 (by decide), W3_v3, W3_v6, W3_v36, W3_arg2]
  rfl

/-- Its right factor: `W2` as launched. -/
theorem W5_arg3 (c : Dev nD) : W5 m ρ c (Proc.devRef .tc main_arg3) = m ((c : Thread nD τ).loc main_arg3) := by
  show after hostOps1 (W4 m ρ c) (Proc.devRef .tc main_arg3) = _
  after_results_simp
  rw [W4_of_ne m ρ c main_arg3 (by decide), W3_arg3]

/-- Its bias row: `b2` recast to one row. -/
theorem W5_v54 (c : Dev nD) :
    W5 m ρ c (Proc.devRef .tc main_v54) = shapeCast S1x64 (m ((c : Thread nD τ).loc main_arg4)) shapeCasts_S64_S1x64 := by
  show after hostOps1 (W4 m ρ c) (Proc.devRef .tc main_v54) = _
  after_results_simp
  rw [W4_of_ne m ρ c main_arg4 (by decide), W3_arg4]
  rfl

end Cert.KernelIdeal.HostRead

end
-- ==== Proof.Join.lean ====
/-
  The reference's two dense stages are the tiled products' whole-array functions. Its first `dot_general` at entry
  `(r, c)` is the sum over `k` of `x (r, k) · W1 (k, c)`. Its result at `(r, c)` is the sum over `k` of
  `max (a (r, k)) 0 · W2 (k, c)` plus `b2 c`, where `a` is its aggregated features: the `relu` is the maximum with the
  zero constant, and `b2` broadcast over the rows reads, at `(r, c)`, the entry `(0, c)` of `b2` recast to one row. The
  sums are compared term by term, through the equality of the two spellings of each factor's index.
-/
import proofs.«116519_j1425929142718_1_alg».proof.Proof.Region0
import proofs.«116519_j1425929142718_1_alg».proof.Proof.Region1
import proofs.«116519_j1425929142718_1_alg».proof.Proof.Spec

noncomputable section

namespace Cert.Bridge

open Cert.ReferenceIdeal Cert.ReferenceIdeal.Gen Cert.ReferenceIdeal.ReadP Idealize.ShloMosaic Idealize.ShloMosaic.TcCoe Idealize.SL.Sem Idealize.ShloMosaic.StableHlo

/-- The two spellings of the left factor's entry `(r, k)` and of the right factor's entry `(k, c)` are one index. -/
theorem lidx37_eq (i : S100000x128.Idx) (k : Fin 128) : lidx_main_v37 i k = Cert.KernelIdeal.Region0.lrowA i k :=
  funext fun a => by
    match a with
    | ⟨0, _⟩ => rfl
    | ⟨1, _⟩ => rfl
theorem ridx37_eq (i : S100000x128.Idx) (k : Fin 128) : ridx_main_v37 i k = Cert.KernelIdeal.Region0.rcolA i k :=
  funext fun a => by
    match a with
    | ⟨0, _⟩ => rfl
    | ⟨1, _⟩ => rfl

/-- The reference's first product is the tiled product's function of the whole arrays. -/
theorem v37_eq_prod (x0 : (⟨S100000x128, .f32⟩ : BufTy).Contents (Elt Ideal)) (x1 : (⟨S128x128, .f32⟩ : BufTy).Contents (Elt Ideal)) :
    val_main_v37 (F := Ideal) x0 x1 = Cert.KernelIdeal.Region0.prod x0 x1 := by
  funext i
  rw [val_main_v37_apply]
  unfold Cert.KernelIdeal.Region0.prod
  exact Finset.sum_congr rfl fun k _ => by rw [lidx37_eq, ridx37_eq]

/-- `b2` recast to one row, at `(0, c)`, is `b2 c`. -/
theorem row_apply (x4 : (⟨S64, .f32⟩ : BufTy).Contents (Elt Ideal)) (i : S100000x64.Idx) :
    shapeCast Cert.KernelIdeal.S1x64 x4 Cert.KernelIdeal.Facts₀.shapeCasts_S64_S1x64 (Cert.KernelIdeal.Region1.browA i)
      = x4 (idx_main_v56 (idx_main_v57 i)) := by
  refine (shapeCast_addUnit_apply ![64] x4 _ (Cert.KernelIdeal.Region1.browA i)).trans (congrArg x4 (funext fun a => ?_))
  match a with
  | ⟨0, _⟩ => rfl

theorem lidx55_eq (i : S100000x64.Idx) (k : Fin 128) : lidx_main_v55 i k = Cert.KernelIdeal.Region1.lrowA i k :=
  funext fun a => by
    match a with
    | ⟨0, _⟩ => rfl
    | ⟨1, _⟩ => rfl
theorem ridx55_eq (i : S100000x64.Idx) (k : Fin 128) : ridx_main_v55 i k = Cert.KernelIdeal.Region1.rcolA i k :=
  funext fun a => by
    match a with
    | ⟨0, _⟩ => rfl
    | ⟨1, _⟩ => rfl

/-- The reference's result at an index: the sum over the hidden axis of `max (a (r, k)) 0 · W2 (k, c)`, plus `b2 c`. -/
theorem v58_apply (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x64, .f32⟩ : BufTy).Contents (Elt Ideal))
    (x4 : (⟨S64, .f32⟩ : BufTy).Contents (Elt Ideal)) (x5 : (⟨S2x1600000, .i32⟩ : BufTy).Contents (Elt Ideal)) (i : S100000x64.Idx) :
    val_main_v58 (F := Ideal) x0 x1 x2 x3 x4 x5 i
      = (∑ k : Fin 128, max (val_main_v53 (F := Ideal) x0 x1 x2 x5 (lidx_main_v55 i k)) (Ideal.ofBits .f32 0x00000000#32) * x3 (ridx_main_v55 i k))
        + x4 (idx_main_v56 (idx_main_v57 i)) := by
  rw [val_main_v58_apply, val_main_v55_apply, val_main_v57_apply, val_main_v56_apply]
  refine congrArg₂ (· + ·) (Finset.sum_congr rfl fun k _ => ?_) rfl
  rw [val_main_v54_apply, val_main_call1_v0_apply, val_main_call1_cst_apply]
  rfl

/-- The reference's result is the tiled closing layer's function of its aggregated features, `W2` and the bias row. -/
theorem v58_eq_layer (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x64, .f32⟩ : BufTy).Contents (Elt Ideal))
    (x4 : (⟨S64, .f32⟩ : BufTy).Contents (Elt Ideal)) (x5 : (⟨S2x1600000, .i32⟩ : BufTy).Contents (Elt Ideal)) :
    val_main_v58 (F := Ideal) x0 x1 x2 x3 x4 x5
      = Cert.KernelIdeal.Region1.layer (val_main_v53 (F := Ideal) x0 x1 x2 x5) x3
          (shapeCast Cert.KernelIdeal.S1x64 x4 Cert.KernelIdeal.Facts₀.shapeCasts_S64_S1x64) := by
  funext i
  rw [v58_apply]
  unfold Cert.KernelIdeal.Region1.layer
  rw [row_apply]
  exact congrArg₂ (· + ·) (Finset.sum_congr rfl fun k _ => by rw [lidx55_eq, ridx55_eq]) rfl

end Cert.Bridge

end
-- ==== Proof.lean ====
/-
  A two-layer graph convolution: `relu (Â · (x · W1) + b1) · W2 + b2`, with `Â` the symmetrically normalized adjacency
  (self loops added). The kernel's program computes the two dense products `x · W1` and `relu a · W2 + b2` in row tiles
  of 5000 rows on the matrix unit, the factors narrowed before the product; everything else (degrees, normalization,
  gather, scatter-add, bias) it does with the very host operations the reference uses. Over the extended reals the
  narrowing is the identity and a tile's product is the plain sum over the hidden axis, so each tiled product leaves the
  array the reference's one `dot_general` computes (Region0, Region1, Join); the host stretch between them is the same
  function of the first product on both sides (`agg`: Spec, Host). No law of the extended reals beyond the equality
  of the sums term by term is used, so the finiteness of the inputs is never opened.
-/
import proofs.«116519_j1425929142718_1_alg».proof.Defs
import proofs.«116519_j1425929142718_1_alg».proof.Proof.Gen.Kernel
import proofs.«116519_j1425929142718_1_alg».proof.Proof.Gen.Kernel.Frame
import proofs.«116519_j1425929142718_1_alg».proof.Proof.Gen.KernelIdeal
import proofs.«116519_j1425929142718_1_alg».proof.Proof.Gen.KernelIdeal.Frame
import proofs.«116519_j1425929142718_1_alg».proof.Proof.Gen.ReferenceIdeal
import proofs.«116519_j1425929142718_1_alg».proof.Proof.Gen.Pre_finite_inputs
import proofs.«116519_j1425929142718_1_alg».proof.Proof.RefRun
import proofs.«116519_j1425929142718_1_alg».proof.Proof.RefRead
import proofs.«116519_j1425929142718_1_alg».proof.Proof.RunValue
import proofs.«116519_j1425929142718_1_alg».proof.Proof.Region0
import proofs.«116519_j1425929142718_1_alg».proof.Proof.Region1
import proofs.«116519_j1425929142718_1_alg».proof.Proof.Spec
import proofs.«116519_j1425929142718_1_alg».proof.Proof.Host
import proofs.«116519_j1425929142718_1_alg».proof.Proof.Join
import Idealize.ShloMosaic.Adequacy
import Idealize.ShloMosaic.Init

set_option maxRecDepth 16384

noncomputable section

namespace Cert.Proof

open Idealize.ShloMosaic Idealize.ShloMosaic.TcCoe Idealize.SL.Sem

/-! ## The kernel's result -/

section KernelValue

open Cert.KernelIdeal Cert.KernelIdeal.Gen

/-- What the kernel's program leaves in its result buffer: the reference's result stage of the launch arguments. The
    second tiled product leaves its closing layer of the arrays it finds; its left factor is `agg` of what the first
    tiled product left, which is the whole product of `x` and `W1` as launched. -/
theorem kernel_value (m : (ℓ : Loc nD τ sig) → Buf (Elt Ideal) ℓ) (ρ : Dev nD → PrngReg) (c : Dev nD) :
    V6 m ρ c main_v55
      = Cert.ReferenceIdeal.ReadP.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  refine (W6_arr m ρ c 3).trans ?_
  rw [Cert.KernelIdeal.Region1.final (V5 m ρ) c, Cert.Bridge.v58_eq_layer, Cert.Bridge.v53_eq, Cert.Bridge.v37_eq_prod]
  have h37 : W4 m ρ c (Proc.devRef .tc main_v37)
      = Cert.KernelIdeal.Region0.prod (m ((c.tc : Thread nD τ).loc main_arg0)) (m ((c.tc : Thread nD τ).loc main_arg1)) := by
    refine (W4_arr m ρ c 2).trans ?_
    rw [Cert.KernelIdeal.Region0.final (V3 m ρ) c]
    exact congrArg₂ Cert.KernelIdeal.Region0.prod (Cert.KernelIdeal.HostRead.W3_arg0 m ρ c) (Cert.KernelIdeal.HostRead.W3_arg1 m ρ c)
  have h53 : V5 m ρ c main_v53
      = Cert.Bridge.agg (F := Ideal) (Cert.KernelIdeal.Region0.prod (m ((c.tc : Thread nD τ).loc main_arg0)) (m ((c.tc : Thread nD τ).loc main_arg1)))
          (m ((c.tc : Thread nD τ).loc main_arg2)) (m ((c.tc : Thread nD τ).loc main_arg5)) :=
    (Cert.KernelIdeal.HostRead.W5_v53 m ρ c).trans (by rw [h37])
  have h3 : V5 m ρ c main_arg3 = m ((c.tc : Thread nD τ).loc main_arg3) := Cert.KernelIdeal.HostRead.W5_arg3 m ρ c
  have h54 : V5 m ρ c main_v54 = shapeCast S1x64 (m ((c.tc : Thread nD τ).loc main_arg4)) shapeCasts_S64_S1x64 :=
    Cert.KernelIdeal.HostRead.W5_v54 m ρ c
  rw [h53, h3, h54]

end KernelValue

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote nothing: the conjunct is `True`. -/
theorem preserves : Cert.preserves_Kernel_KernelIdeal := trivial

/-- Both programs end with the reference's result stage of the (agreeing) arguments. -/
theorem algebraic : Cert.algebraic_KernelIdeal_ReferenceIdeal := by
  intro m ρ m' ρ' _ hagree
  refine ⟨fun c => Cert.ReferenceIdeal.ReadP.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (kernel_value m ρ c), (h c).2⟩)
      (Cert.KernelIdeal.RunValue.run_value m ρ)
  · refine (θ_run Cert.ReferenceIdeal.defs _ _).mono (fun r h c => ⟨(h c).1.trans ?_, (h c).2⟩)
      (Cert.ReferenceIdeal.RunP.run (F := Ideal) m' ρ')
    rw [Cert.ReferenceIdeal.ReadP.val_main_v58_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
